-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S11008x4096 32) (main_arg2 : FVec F S11008 .f32) (main_arg3 : IVec S11008x4096 32) (main_arg4 : FVec F S11008 .f32) (main_arg5 : IVec S4096x11008 32) (main_arg6 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S4096x4096 : Shape := ⟨2, ![4096, 4096]⟩
abbrev S1x11008 : Shape := ⟨2, ![1, 11008]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S4096x256 : Shape := ⟨2, ![4096, 256]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S4096x4096, .f32⟩
  | .hbm, ⟨8, _⟩ => ⟨S4096x4096, .bf16⟩
  | .hbm, ⟨9, _⟩ => ⟨S11008x4096, .bf16⟩
  | .hbm, ⟨10, _⟩ => ⟨S11008x4096, .bf16⟩
  | .hbm, ⟨11, _⟩ => ⟨S4096x11008, .bf16⟩
  | .hbm, ⟨12, _⟩ => ⟨S1x11008, .f32⟩
  | .hbm, ⟨13, _⟩ => ⟨S1x11008, .f32⟩
  | .hbm, ⟨14, _⟩ => ⟨S1x4096, .f32⟩
  | .hbm, ⟨15, _⟩ => ⟨S4096x4096, .f32⟩
  | .hbm, ⟨16, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x256, .f32⟩
  | .local _ .vmem, ⟨9, _⟩ => ⟨S1x256, .f32⟩
  | .local _ .vmem, ⟨10, _⟩ => ⟨S4096x256, .bf16⟩
  | .local _ .vmem, ⟨11, _⟩ => ⟨S4096x256, .bf16⟩
  | .local _ .vmem, ⟨12, _⟩ => ⟨S1x4096, .f32⟩
  | .local _ .vmem, ⟨13, _⟩ => ⟨S512x4096, .f32⟩
  | .local _ .vmem, ⟨14, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x4096_S4096x4096 : S2x2048x4096.ShapeCasts S4096x4096
  bitsLt_bf16_f32 : FTy.bits .bf16 < FTy.bits .f32
  shapeCasts_S11008_S1x11008 : S11008.ShapeCasts S1x11008
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S4096x4096_S2x2048x4096 : S4096x4096.ShapeCasts S2x2048x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x11008.size a
  hwx0_5 : ∀ i : grid0.Coords, EltTy.bits .bf16 = 32 ∨ (Rect.block (s := S4096x11008) S4096x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x4096.size a ≤ S4096x4096.size a
  hwx0_7 : ∀ i : grid0.Coords, EltTy.bits .f32 = 32 ∨ (Rect.block (s := S4096x4096) S512x4096.size (cc0_transform_7 i) (hinb0_7 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S2x2048x11008 : Shape := ⟨3, ![2, 2048, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S11008x4096, .f32⟩
  | .hbm, ⟨8, _⟩ => ⟨S2x2048x11008, .f32⟩
  | .hbm, ⟨9, _⟩ => ⟨S1x1x11008, .f32⟩
  | .hbm, ⟨10, _⟩ => ⟨S2x2048x11008, .f32⟩
  | .hbm, ⟨11, _⟩ => ⟨S2x2048x11008, .f32⟩
  | .hbm, ⟨12, _⟩ => ⟨S2x2048x11008, .f32⟩
  | .hbm, ⟨13, _⟩ => ⟨S2x2048x11008, .f32⟩
  | .hbm, ⟨14, _⟩ => ⟨S_, .f32⟩
  | .hbm, ⟨15, _⟩ => ⟨S2x2048x11008, .f32⟩
  | .hbm, ⟨16, _⟩ => ⟨S2x2048x11008, .f32⟩
  | .hbm, ⟨17, _⟩ => ⟨S_, .f32⟩
  | .hbm, ⟨18, _⟩ => ⟨S2x2048x11008, .f32⟩
  | .hbm, ⟨19, _⟩ => ⟨S2x2048x11008, .f32⟩
  | .hbm, ⟨20, _⟩ => ⟨S2x2048x11008, .f32⟩
  | .hbm, ⟨21, _⟩ => ⟨S11008x4096, .f32⟩
  | .hbm, ⟨22, _⟩ => ⟨S2x2048x11008, .f32⟩
  | .hbm, ⟨23, _⟩ => ⟨S1x1x11008, .f32⟩
  | .hbm, ⟨24, _⟩ => ⟨S2x2048x11008, .f32⟩
  | .hbm, ⟨25, _⟩ => ⟨S2x2048x11008, .f32⟩
  | .hbm, ⟨26, _⟩ => ⟨S2x2048x11008, .f32⟩
  | .hbm, ⟨27, _⟩ => ⟨S4096x11008, .f32⟩
  | .hbm, ⟨28, _⟩ => ⟨S2x2048x4096, .f32⟩
  | .hbm, ⟨29, _⟩ => ⟨S1x1x4096, .f32⟩
  | .hbm, ⟨30, _⟩ => ⟨S2x2048x4096, .f32⟩
  | .hbm, ⟨31, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  bcast_S_S2x2048x11008 : S_.BroadcastsInDim S2x2048x11008 (![] : Fin 0 → Fin S2x2048x11008.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.Spec.lean ====
/-
  The mathematics of the quantized gated feed-forward block, with no program in sight.

  For one token row x ∈ EReal^4096 and integer weight matrices read as reals, the block computes, for each of the
  4096 output channels q,

      out q = ( ∑_{f < 11008}  hidden f · dw q f ) · ds q,
      hidden f = (g f · σ(g f)) · u f,   g f = (∑_k x k · gw f k) · gs f,   u f = (∑_k x k · uw f k) · us f,

  with σ the logistic function of the extended reals. A blocked evaluation walks the 11008 hidden channels in 43
  blocks of 256, adding each block's contribution to a running sum that starts at zero, and scales by ds once at
  the end. The two facts that make the blocked and the whole evaluation one number hold in every commutative
  additive monoid, so nothing here needs the inputs to be finite: a sum over 43 · 256 indices is the sum over the
  blocks of the sums inside each block, and the running sum after block n + 1 is the running sum after block n
  plus block n + 1.
-/
import Idealize.ShloMosaic.PureOps.Ideal
import Idealize.ShloMosaic.Lib.ValueIdx

noncomputable section

namespace Cert.Ffn

open Idealize.ShloMosaic
open scoped BigOperators

/-! ## One hidden channel, and one output channel -/

/-- One hidden channel of the gated unit: the gate pre-activation g = (x · gw) · gs through g · σ(g), times the
    up-projection (x · uw) · us. The products are written in the order both programs multiply in. -/
def gated {K : ℕ} (x gw uw : Fin K → EReal) (gs us : EReal) : EReal :=
  (((∑ k, x k * gw k) * gs) * Ideal.logistic ((∑ k, x k * gw k) * gs)) * ((∑ k, x k * uw k) * us)

/-- Output channel q of the block for the token row x: the hidden channels against row q of the down-projection,
    scaled by that channel's scale. -/
def ffnOut (x : Fin 4096 → EReal) (gw uw : Fin 11008 → Fin 4096 → EReal) (gs us : Fin 11008 → EReal)
    (dw : Fin 4096 → Fin 11008 → EReal) (ds : Fin 4096 → EReal) (q : Fin 4096) : EReal :=
  (∑ f, gated x (gw f) (uw f) (gs f) (us f) * dw q f) * ds q

/-! ## Hidden channels in 43 blocks of 256 -/

/-- Hidden channel j of block b. -/
abbrev chan (b : Fin 43) (j : Fin 256) : Fin 11008 := ⟨256 * b.val + j.val, by have := b.isLt; have := j.isLt; omega⟩

/-- Token row p of row block i (512 rows a block, 8 blocks). -/
abbrev tokRow (i : Fin 8) (p : Fin 512) : Fin 4096 := ⟨512 * i.val + p.val, by have := i.isLt; have := p.isLt; omega⟩

section Monoid

variable {M : Type*} [AddCommMonoid M]

/-- The pairs (block, channel inside the block) are the 11008 hidden channels. -/
def chanEquiv : Fin 43 × Fin 256 ≃ Fin 11008 :=
  finProdFinEquiv.trans (finCongr (by norm_num : 43 * 256 = 11008))

theorem chanEquiv_apply (b : Fin 43) (j : Fin 256) : chanEquiv (b, j) = chan b j :=
  Fin.ext (by show j.val + 256 * b.val = 256 * b.val + j.val; omega)

/-- A sum over the hidden channels is the sum over the blocks of the sums inside each block. -/
theorem sum_chan (a : Fin 11008 → M) : ∑ f, a f = ∑ b : Fin 43, ∑ j : Fin 256, a (chan b j) := by
  rw [← Equiv.sum_comp chanEquiv a, Fintype.sum_prod_type]
  exact Finset.sum_congr rfl fun b _ => Finset.sum_congr rfl fun j _ => by rw [chanEquiv_apply]

/-- The contribution of blocks 0, …, n. -/
def upto {B : ℕ} (p : Fin B → M) (n : ℕ) : M := ∑ b ∈ Finset.univ.filter (fun b : Fin B => b.val ≤ n), p b

theorem upto_zero {B : ℕ} (p : Fin (B + 1) → M) : upto p 0 = p 0 := by
  unfold upto
  have : Finset.univ.filter (fun b : Fin (B + 1) => b.val ≤ 0) = {0} := by
    ext b; simp only [Finset.mem_filter, Finset.mem_univ, true_and, Finset.mem_singleton]
    exact ⟨fun h => Fin.ext (by show b.val = 0; omega), fun h => by rw [h]; exact le_rfl⟩
  rw [this, Finset.sum_singleton]

theorem upto_succ {B : ℕ} (p : Fin B → M) (n : ℕ) (h : n + 1 < B) : upto p (n + 1) = upto p n + p ⟨n + 1, h⟩ := by
  unfold upto
  have hs : Finset.univ.filter (fun b : Fin B => b.val ≤ n + 1)
      = insert ⟨n + 1, h⟩ (Finset.univ.filter (fun b : Fin B => b.val ≤ n)) := by
    ext b; simp only [Finset.mem_filter, Finset.mem_univ, true_and, Finset.mem_insert]
    constructor
    · intro hb
      by_cases hn : b.val = n + 1
      · exact Or.inl (Fin.ext hn)
      · exact Or.inr (by omega)
    · rintro (rfl | hb)
      · exact le_rfl
      · omega
  have hni : (⟨n + 1, h⟩ : Fin B) ∉ Finset.univ.filter (fun b : Fin B => b.val ≤ n) := by
    simp only [Finset.mem_filter, Finset.mem_univ, true_and]; omega
  rw [hs, Finset.sum_insert hni, add_comm]

theorem upto_last {B : ℕ} (p : Fin B → M) (n : ℕ) (h : B ≤ n + 1) : upto p n = ∑ b, p b := by
  unfold upto
  have : Finset.univ.filter (fun b : Fin B => b.val ≤ n) = Finset.univ := by
    ext b; simp only [Finset.mem_filter, Finset.mem_univ, true_and, iff_true]; have := b.isLt; omega
  rw [this]

end Monoid

/-- Block b's contribution to output channel q for the token row x. -/
def blockTerm (x : Fin 4096 → EReal) (gw uw : Fin 11008 → Fin 4096 → EReal) (gs us : Fin 11008 → EReal)
    (dw : Fin 4096 → Fin 11008 → EReal) (q : Fin 4096) (b : Fin 43) : EReal :=
  ∑ j : Fin 256, gated x (gw (chan b j)) (uw (chan b j)) (gs (chan b j)) (us (chan b j)) * dw q (chan b j)

/-- The blocked evaluation is the whole one: all 43 blocks' contributions, scaled, are output channel q. -/
theorem ffnOut_eq_blocks (x : Fin 4096 → EReal) (gw uw : Fin 11008 → Fin 4096 → EReal) (gs us : Fin 11008 → EReal)
    (dw : Fin 4096 → Fin 11008 → EReal) (ds : Fin 4096 → EReal) (q : Fin 4096) :
    upto (blockTerm x gw uw gs us dw q) 42 * ds q = ffnOut x gw uw gs us dw ds q := by
  rw [upto_last _ 42 (by norm_num)]
  unfold ffnOut blockTerm
  rw [sum_chan (fun f => gated x (gw f) (uw f) (gs f) (us f) * dw q f)]

/-! ## The block's result as an array of the seven argument arrays -/

open Idealize.ShloMosaic.ValueIdx in
/-- The result array: entry (b, s, q) is output channel q for token row (b, s) of x, the three integer weight
    matrices read as the reals their words denote (signed), the three scale vectors as they are. -/
def result (x : (⟨3, ![2, 2048, 4096]⟩ : Shape).Idx → EReal)
    (gw : (⟨2, ![11008, 4096]⟩ : Shape).Idx → BitVec 32) (gs : (⟨1, ![11008]⟩ : Shape).Idx → EReal)
    (uw : (⟨2, ![11008, 4096]⟩ : Shape).Idx → BitVec 32) (us : (⟨1, ![11008]⟩ : Shape).Idx → EReal)
    (dw : (⟨2, ![4096, 11008]⟩ : Shape).Idx → BitVec 32) (ds : (⟨1, ![4096]⟩ : Shape).Idx → EReal) :
    (⟨3, ![2, 2048, 4096]⟩ : Shape).Idx → EReal :=
  fun i => ffnOut (fun k => x (ix3 (i 0) (i 1) k))
    (fun f k => (((gw (ix2 f k)).toInt : ℝ) : EReal)) (fun f k => (((uw (ix2 f k)).toInt : ℝ) : EReal))
    (fun f => gs (ix1 f)) (fun f => us (ix1 f))
    (fun q f => (((dw (ix2 q f)).toInt : ℝ) : EReal)) (fun q => ds (ix1 q)) (i 2)

end Cert.Ffn

end
-- ==== Proof.Payload.lean ====
/-
  What the body's three stores hold, entry by entry, over the extended reals.

  At one grid point the body sees a block of 512 token rows x, the 256 rows of the gate and up weight matrices that
  belong to the point's hidden channels, those channels' two scales, the 256 columns of the down-projection that
  belong to them, and the running output block acc. Its accumulating store writes, at (p, q),

      acc (p, q) + ∑_{j < 256} hidden (p, j) · dw (q, j),

  where hidden (p, j) is the gated unit of Spec.lean for token row p against weight rows j: the two products of the
  body are matrix products with a transposed right operand, so each entry is a plain sum over the contracted axis,
  a scale row broadcast over the 512 token rows reads the scale at its column, and a change of float format is the
  identity. The zero store writes 0 everywhere, and the last store multiplies the block by the down scale at its
  column.
-/
import proofs.«176337_j10118942949749_1_alg».proof.Proof.Gen.KernelIdeal.Skeleton
import proofs.«176337_j10118942949749_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The two matrix products as sums -/

/-- Rows of the [512, 4096] · [4096, 256] product: the left operand keeps the output's row, -/
theorem lhsA_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
/-- and is read along the contracted axis in its second coordinate; -/
theorem lhsA_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
/-- the right operand is read along the contracted axis in its first coordinate -/
theorem rhsA_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
/-- and keeps the output's column. -/
theorem rhsA_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The [512, 4096] · [4096, 256] product into a zero accumulator, at (p, j): the sum over the 4096 contracted
    positions of left (p, k) times right (k, j). -/
theorem matmulA_apply (l : FVec Ideal S512x4096 .bf16) (r : FVec Ideal S4096x256 .bf16) (p : Fin 512) (j : Fin 256) :
    matmul dot_S512x4096_S4096x256_S512x256_1_0_0_1_n_n none l r (constant (F := Ideal) S512x256 .f32 0x00000000#32) (ix2 p j)
      = ∑ k : Fin 4096, l (ix2 p k) * r (ix2 k j) := by
  refine (Ideal.matmul_constant_zero_apply dot_S512x4096_S4096x256_S512x256_1_0_0_1_n_n none l r (ix2 p j)).trans ?_
  rw [← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p j) ((contrEquiv1 dot_S512x4096_S4096x256_S512x256_1_0_0_1_n_n 4096 rfl rfl).symm k) = ix2 p k := funext fun a => Fin.ext (by
    match a with
    | ⟨0, _⟩ => exact lhsA_0 _ _
    | ⟨1, _⟩ => exact (lhsA_1 _ _).trans hk)
  have er : dot_S512x4096_S4096x256_S512x256_1_0_0_1_n_n.rhsIdx (ix2 p j) ((contrEquiv1 dot_S512x4096_S4096x256_S512x256_1_0_0_1_n_n 4096 rfl rfl).symm k) = ix2 k j := funext fun a => Fin.ext (by
    match a with
    | ⟨0, _⟩ => exact (rhsA_0 _ _).trans hk
    | ⟨1, _⟩ => exact rhsA_1 _ _)
  rw [el, er]

/-- The same four facts for the [512, 256] · [256, 4096] product. -/
theorem lhsB_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhsB_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
theorem rhsB_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
theorem rhsB_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- The [512, 256] · [256, 4096] product into a zero accumulator, at (p, q): the sum over the 256 contracted
    positions of left (p, j) times right (j, q). -/
theorem matmulB_apply (l : FVec Ideal S512x256 .bf16) (r : FVec Ideal S256x4096 .bf16) (p : Fin 512) (q : Fin 4096) :
    matmul dot_S512x256_S256x4096_S512x4096_1_0_0_1_n_n none l r (constant (F := Ideal) S512x4096 .f32 0x00000000#32) (ix2 p q)
      = ∑ j : Fin 256, l (ix2 p j) * r (ix2 j q) := by
  refine (Ideal.matmul_constant_zero_apply dot_S512x256_S256x4096_S512x4096_1_0_0_1_n_n none l r (ix2 p q)).trans ?_
  rw [← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 p q) ((contrEquiv1 dot_S512x256_S256x4096_S512x4096_1_0_0_1_n_n 256 rfl rfl).symm k) = ix2 p k := funext fun a => Fin.ext (by
    match a with
    | ⟨0, _⟩ => exact lhsB_0 _ _
    | ⟨1, _⟩ => exact (lhsB_1 _ _).trans hk)
  have er : dot_S512x256_S256x4096_S512x4096_1_0_0_1_n_n.rhsIdx (ix2 p q) ((contrEquiv1 dot_S512x256_S256x4096_S512x4096_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## The pre-activations and the hidden block -/

/-- A projection's pre-activation block at (p, j): token row p against weight row j (the weights enter
    transposed), times the channel's scale, which the broadcast repeats down the 512 rows. -/
theorem proj_apply (x : FVec Ideal S512x4096 .bf16) (w : FVec Ideal S256x4096 .bf16) (s : FVec Ideal S1x256 .f32)
    (p : Fin 512) (j : Fin 256) :
    mulf (matmul dot_S512x4096_S4096x256_S512x256_1_0_0_1_n_n none x
        (transpose S4096x256 [1, 0] w transposes_S256x4096_p1_0_S4096x256) (constant (F := Ideal) S512x256 .f32 0x00000000#32))
      (broadcastTo S512x256 s broadcasts_S1x256_S512x256) (ix2 p j)
      = (∑ k : Fin 4096, x (ix2 p k) * w (ix2 j k)) * s (ix2 (0 : Fin 1) j) := by
  refine (mulf_apply _ _ _).trans ?_
  refine congrArg₂ (· * ·) ?_ (broadcastTo_1b_ab_apply s _ p j)
  refine (matmulA_apply x _ p j).trans ?_
  exact Finset.sum_congr rfl fun k _ => congrArg (x (ix2 p k) * ·) (transpose_ix2_apply w _ k j)

/-- The hidden block the body feeds to the down-projection, at (p, j): the gated unit of token row p against gate
    and up weight rows j and the two scales at column j. -/
def hid (x : FVec Ideal S512x4096 .bf16) (gw uw : FVec Ideal S256x4096 .bf16) (gs us : FVec Ideal S1x256 .f32) :
    FVec Ideal S512x256 .bf16 :=
  truncf .bf16 (mulf (mulf
      (mulf (matmul dot_S512x4096_S4096x256_S512x256_1_0_0_1_n_n none x (transpose S4096x256 [1, 0] gw transposes_S256x4096_p1_0_S4096x256) (constant (F := Ideal) S512x256 .f32 0x00000000#32)) (broadcastTo S512x256 gs broadcasts_S1x256_S512x256))
      (logistic (mulf (matmul dot_S512x4096_S4096x256_S512x256_1_0_0_1_n_n none x (transpose S4096x256 [1, 0] gw transposes_S256x4096_p1_0_S4096x256) (constant (F := Ideal) S512x256 .f32 0x00000000#32)) (broadcastTo S512x256 gs broadcasts_S1x256_S512x256))))
      (mulf (matmul dot_S512x4096_S4096x256_S512x256_1_0_0_1_n_n none x (transpose S4096x256 [1, 0] uw transposes_S256x4096_p1_0_S4096x256) (constant (F := Ideal) S512x256 .f32 0x00000000#32)) (broadcastTo S512x256 us broadcasts_S1x256_S512x256)))
    bitsLt_bf16_f32

theorem hid_apply (x : FVec Ideal S512x4096 .bf16) (gw uw : FVec Ideal S256x4096 .bf16) (gs us : FVec Ideal S1x256 .f32)
    (p : Fin 512) (j : Fin 256) :
    hid x gw uw gs us (ix2 p j)
      = Cert.Ffn.gated (fun k => x (ix2 p k)) (fun k => gw (ix2 j k)) (fun k => uw (ix2 j k)) (gs (ix2 (0 : Fin 1) j)) (us (ix2 (0 : Fin 1) j)) := by
  unfold hid Cert.Ffn.gated
  refine (truncf_apply (φ := .f32) (ψ := .bf16) _ bitsLt_bf16_f32 (ix2 p j)).trans ?_
  refine (mulf_apply _ _ _).trans ?_
  refine congrArg₂ (· * ·) ?_ (proj_apply x uw us p j)
  refine (mulf_apply _ _ _).trans ?_
  refine congrArg₂ (· * ·) (proj_apply x gw gs p j) ?_
  show Ideal.logistic _ = _
  exact congrArg Ideal.logistic (proj_apply x gw gs p j)

/-! ## The three stores -/

/-- The accumulating store at (p, q): the running block plus the hidden block against the down-projection's
    columns of this point (its rows after the transposition the body makes). -/
theorem pay3_apply (x : FVec Ideal S512x4096 .bf16) (gw uw : FVec Ideal S256x4096 .bf16) (gs us : FVec Ideal S1x256 .f32)
    (dw : FVec Ideal S4096x256 .bf16) (acc : FVec Ideal S512x4096 .f32) (p : Fin 512) (q : Fin 4096) :
    k0_pay3 (F := Ideal) x gw uw gs us dw acc (ix2 p q)
      = acc (ix2 p q) + ∑ j : Fin 256, Cert.Ffn.gated (fun k => x (ix2 p k)) (fun k => gw (ix2 j k)) (fun k => uw (ix2 j k))
          (gs (ix2 (0 : Fin 1) j)) (us (ix2 (0 : Fin 1) j)) * dw (ix2 q j) := by
  show addf (shapeCast S512x4096 acc shapeCasts_S512x4096_S512x4096)
      (matmul dot_S512x256_S256x4096_S512x4096_1_0_0_1_n_n none
        (hid (shapeCast S512x4096 x shapeCasts_S512x4096_S512x4096) (shapeCast S256x4096 gw shapeCasts_S256x4096_S256x4096)
          (shapeCast S256x4096 uw shapeCasts_S256x4096_S256x4096) (shapeCast S1x256 gs shapeCasts_S1x256_S1x256) (shapeCast S1x256 us shapeCasts_S1x256_S1x256))
        (transpose S256x4096 [1, 0] (shapeCast S4096x256 dw shapeCasts_S4096x256_S4096x256) transposes_S4096x256_p1_0_S256x4096)
        (constant (F := Ideal) S512x4096 .f32 0x00000000#32)) (ix2 p q) = _
  simp only [shapeCast_self]
  refine (addf_apply _ _ _).trans ?_
  refine congrArg (acc (ix2 p q) + ·) ?_
  refine (matmulB_apply _ _ p q).trans ?_
  exact Finset.sum_congr rfl fun j _ => congrArg₂ (· * ·) (hid_apply x gw uw gs us p j) (transpose_ix2_apply dw _ j q)

/-- The zero store: 0 at every entry. -/
theorem pay2_apply (i : S512x4096.Idx) : (k0_pay2 (F := Ideal)) i = 0 := by
  show Ideal.ofBits .f32 0x00000000#32 = 0
  exact Ideal.ofBits_zero_f32

/-- The scaling store at (p, q): the block's entry times the down scale of column q. -/
theorem pay1_apply (acc : FVec Ideal S512x4096 .f32) (ds : FVec Ideal S1x4096 .f32) (p : Fin 512) (q : Fin 4096) :
    k0_pay1 (F := Ideal) acc ds (ix2 p q) = acc (ix2 p q) * ds (ix2 (0 : Fin 1) q) := by
  show mulf (shapeCast S512x4096 acc shapeCasts_S512x4096_S512x4096)
      (broadcastTo S512x4096 (shapeCast S1x4096 ds shapeCasts_S1x4096_S1x4096) broadcasts_S1x4096_S512x4096) (ix2 p q) = _
  simp only [shapeCast_self]
  refine (mulf_apply _ _ _).trans ?_
  exact congrArg (acc (ix2 p q) * ·) (broadcastTo_1b_ab_apply ds _ p q)

end Cert.KernelIdeal.Pay

end
-- ==== Proof.Cases.lean ====
/-
  What each of the body's three control cases leaves in the output block, as a value.

  The output block stays in place while the hidden-channel coordinate of the grid runs from 0 to 42. At coordinate 0
  the body first writes zeros, reads them back and adds this point's contribution; at coordinates 1 to 41 it adds
  the contribution to what the point before left; at coordinate 42 it does the same and then multiplies the block
  by the down-projection's scale row. Each case writes the whole block with stores that cover it, the later store
  reading the earlier one back, so what the block ends with is the last store's value with the earlier store's
  value in place of the read-back. The three statements below say exactly that, at any float instance.
-/
import proofs.«176337_j10118942949749_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

/-- Every load and store of the body starts at the block's origin. -/
theorem hz : (![0, 0] : Fin 2 → Nat) = fun _ => 0 := funext fun a => by fin_cases a <;> rfl

/-- Hidden-channel coordinate 1 to 41: the running block plus this point's contribution. -/
theorem out_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S512x4096 .f32) (harg9 : arg9.IsWhole) (hc0 : ¬cond0_0 i) (hc1 : ¬cond0_1 i) (x0 : Vec F S512x4096 .bf16) (x1 : Vec F S256x4096 .bf16) (x2 : Vec F S1x256 .f32) (x3 : Vec F S256x4096 .bf16) (x4 : Vec F S1x256 .f32) (x5 : Vec F S4096x256 .bf16) (x6 : Vec F S1x4096 .f32) (xo7 : Vec F S512x4096 .f32) :
    out0_B_7 c i arg2 harg2 arg3 harg3 arg4 harg4 arg5 harg5 arg6 harg6 arg7 harg7 arg8 harg8 arg9 harg9 hc0 hc1 x0 x1 x2 x3 x4 x5 x6 xo7 = k0_pay3 x0 x1 x3 x2 x4 x5 xo7 := by
  unfold out0_B_7
  rw [View.read_writes_eq_canon _ _ _ (cover0_B_7 c i arg2 harg2 arg3 harg3 arg4 harg4 arg5 harg5 arg6 harg6 arg7 harg7 arg8 harg8 arg9 harg9 hc0 hc1 x0 x1 x2 x3 x4 x5 x6 xo7)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg9.read_unread, View.ld_unit_zero (S := S512x4096) hz, View.ld_unit_zero (S := S256x4096) hz,
    View.ld_unit_zero (S := S1x256) hz, View.ld_unit_zero (S := S4096x256) hz]

/-- Hidden-channel coordinate 0: the zero block plus this point's contribution. -/
theorem out_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S512x4096 .f32) (harg9 : arg9.IsWhole) (hc0 : cond0_0 i) (hc1 : ¬cond0_1 i) (x0 : Vec F S512x4096 .bf16) (x1 : Vec F S256x4096 .bf16) (x2 : Vec F S1x256 .f32) (x3 : Vec F S256x4096 .bf16) (x4 : Vec F S1x256 .f32) (x5 : Vec F S4096x256 .bf16) (x6 : Vec F S1x4096 .f32) :
    out0_A_7 c i arg2 harg2 arg3 harg3 arg4 harg4 arg5 harg5 arg6 harg6 arg7 harg7 arg8 harg8 arg9 harg9 hc0 hc1 x0 x1 x2 x3 x4 x5 x6 = k0_pay3 x0 x1 x3 x2 x4 x5 (k0_pay2 (F := F)) := by
  unfold out0_A_7
  rw [View.read_writes_eq_canon _ _ _ (cover0_A_7 c i arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread,
    harg7.read_unread, View.ld_unit_zero (S := S512x4096) hz, View.ld_unit_zero (S := S256x4096) hz,
    View.ld_unit_zero (S := S1x256) hz, View.ld_unit_zero (S := S4096x256) hz]

/-- Hidden-channel coordinate 42: the running block plus this point's contribution, scaled by the down scale row. -/
theorem out_C (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x256 .f32) (harg6 : arg6.IsWhole) (arg7 : Memref sig .tc .vmem S4096x256 .bf16) (harg7 : arg7.IsWhole) (arg8 : Memref sig .tc .vmem S1x4096 .f32) (harg8 : arg8.IsWhole) (arg9 : Memref sig .tc .vmem S512x4096 .f32) (harg9 : arg9.IsWhole) (hc0 : ¬cond0_0 i) (hc1 : cond0_1 i) (x0 : Vec F S512x4096 .bf16) (x1 : Vec F S256x4096 .bf16) (x2 : Vec F S1x256 .f32) (x3 : Vec F S256x4096 .bf16) (x4 : Vec F S1x256 .f32) (x5 : Vec F S4096x256 .bf16) (x6 : Vec F S1x4096 .f32) (xo7 : Vec F S512x4096 .f32) :
    out0_C_7 c i arg2 harg2 arg3 harg3 arg4 harg4 arg5 harg5 arg6 harg6 arg7 harg7 arg8 harg8 arg9 harg9 hc0 hc1 x0 x1 x2 x3 x4 x5 x6 xo7 = k0_pay1 (k0_pay3 x0 x1 x3 x2 x4 x5 xo7) x6 := by
  unfold out0_C_7
  rw [View.read_writes_eq_canon _ _ _ (cover0_C_7 c i arg2 harg2 arg3 harg3 arg4 harg4 arg5 harg5 arg6 harg6 arg7 harg7 arg8 harg8 arg9 harg9 hc0 hc1 x0 x1 x2 x3 x4 x5 x6 xo7)]
  unfold kernelRun0_C
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread,
    harg7.read_unread, harg8.read_unread, harg9.read_unread, View.ld_unit_zero (S := S512x4096) hz, View.ld_unit_zero (S := S256x4096) hz,
    View.ld_unit_zero (S := S1x256) hz, View.ld_unit_zero (S := S4096x256) hz, View.ld_unit_zero (S := S1x4096) hz]

end Cert.KernelIdeal.Cases

end
-- ==== Proof.KernelValue.lean ====
/-
  What the region's result array holds after the run, over the extended reals.

  The grid has 8 · 43 points; point t works on token rows 512 · (t / 43) … + 511 and on hidden channels
  256 · (t % 43) … + 255. Each operand's block at t is the piece of its array that these two coordinates select,
  so one point's accumulating store adds, at (p, q), exactly Spec.lean's block term of token row
  512 · (t / 43) + p and output channel q for block t % 43. By induction on the point, the output block holds
  after point t the contributions of blocks 0 … t % 43 of its row block (the zero the first of them starts from
  adds nothing), and at t % 43 = 42 that sum scaled by the down scale. Only those last points write back; their
  row blocks tile the [4096, 4096] result array, which therefore ends at Spec.lean's output channel q of token
  row r at every (r, q).
-/
import proofs.«176337_j10118942949749_1_alg».proof.Proof.Gen.KernelIdeal.Frame
import proofs.«176337_j10118942949749_1_alg».proof.Proof.Payload
import proofs.«176337_j10118942949749_1_alg».proof.Proof.Cases
import proofs.«176337_j10118942949749_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Ffn
open Idealize.ShloMosaic.Pipeline (Dat)
open scoped BigOperators

variable (m : (ℓ : Loc nD τ sig) → Buf (Elt Ideal) ℓ) (ρ : Dev nD → PrngReg)

/-! ## The grid's two coordinates and the index maps -/

/-- The block index of every window at every point: token-row block t / 43 for x and the output, hidden-channel
    block t % 43 for the weights and their scales, the one block of the down scale. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = t.val % 43 ∧ win0_3.index t (1 : Fin 2) = 0
    ∧ win0_4.index t (0 : Fin 2) = 0 ∧ win0_4.index t (1 : Fin 2) = t.val % 43
    ∧ win0_5.index t (0 : Fin 2) = 0 ∧ win0_5.index t (1 : Fin 2) = t.val % 43
    ∧ win0_6.index t (0 : Fin 2) = 0 ∧ win0_6.index t (1 : Fin 2) = 0
    ∧ win0_7.index t (0 : Fin 2) = t.val / 43 ∧ win0_7.index t (1 : Fin 2) = 0 :=
  (by decide +kernel : ∀ t : Fin grid0.N, _)

/-- The token-row block of a point. -/
def rowBlk (t : Fin cfg0.N) : Fin 8 := ⟨t.val / 43, by have := t.isLt; have h : cfg0.N = 344 := N_0; omega⟩
/-- The hidden-channel block of a point. -/
def chBlk (t : Fin cfg0.N) : Fin 43 := ⟨t.val % 43, Nat.mod_lt _ (by norm_num)⟩

/-! ## The arrays the region finds, and their blocks -/

abbrev Xa (c : Dev nD) : FVec Ideal S4096x4096 .bf16 := V m c main_v1
abbrev GWa (c : Dev nD) : FVec Ideal S11008x4096 .bf16 := V m c main_v2
abbrev GSa (c : Dev nD) : FVec Ideal S1x11008 .f32 := V m c main_v5
abbrev UWa (c : Dev nD) : FVec Ideal S11008x4096 .bf16 := V m c main_v3
abbrev USa (c : Dev nD) : FVec Ideal S1x11008 .f32 := V m c main_v6
abbrev DWa (c : Dev nD) : FVec Ideal S4096x11008 .bf16 := V m c main_v4
abbrev DSa (c : Dev nD) : FVec Ideal S1x4096 .f32 := V m c main_v7

abbrev xblk (c : Dev nD) (t : Fin cfg0.N) : FVec Ideal S512x4096 .bf16 := iblk m c 0 t
abbrev gwblk (c : Dev nD) (t : Fin cfg0.N) : FVec Ideal S256x4096 .bf16 := iblk m c 1 t
abbrev gsblk (c : Dev nD) (t : Fin cfg0.N) : FVec Ideal S1x256 .f32 := iblk m c 2 t
abbrev uwblk (c : Dev nD) (t : Fin cfg0.N) : FVec Ideal S256x4096 .bf16 := iblk m c 3 t
abbrev usblk (c : Dev nD) (t : Fin cfg0.N) : FVec Ideal S1x256 .f32 := iblk m c 4 t
abbrev dwblk (c : Dev nD) (t : Fin cfg0.N) : FVec Ideal S4096x256 .bf16 := iblk m c 5 t
abbrev dsblk (c : Dev nD) (t : Fin cfg0.N) : FVec Ideal S1x4096 .f32 := iblk m c 6 t

/-- Token row r of x, as a function of the model coordinate. -/
abbrev xrow (c : Dev nD) (r : Fin 4096) : Fin 4096 → EReal := fun k => Xa m c (ix2 r k)
abbrev gwf (c : Dev nD) : Fin 11008 → Fin 4096 → EReal := fun f k => GWa m c (ix2 f k)
abbrev uwf (c : Dev nD) : Fin 11008 → Fin 4096 → EReal := fun f k => UWa m c (ix2 f k)
abbrev gsf (c : Dev nD) : Fin 11008 → EReal := fun f => GSa m c (ix2 (0 : Fin 1) f)
abbrev usf (c : Dev nD) : Fin 11008 → EReal := fun f => USa m c (ix2 (0 : Fin 1) f)
abbrev dwf (c : Dev nD) : Fin 4096 → Fin 11008 → EReal := fun q f => DWa m c (ix2 q f)
abbrev dsf (c : Dev nD) : Fin 4096 → EReal := fun q => DSa m c (ix2 (0 : Fin 1) q)

/-- x's block at t is its 512 token rows from 512 · (t / 43). -/
theorem xblk_apply (c : Dev nD) (t : Fin cfg0.N) (p : Fin 512) (k : Fin 4096) :
    xblk m c t (ix2 p k) = Xa m c (ix2 (tokRow (rowBlk t) p) k) := by
  obtain ⟨e0, e1, -⟩ := idx_facts t
  unfold xblk iblk
  rw [View.read_apply]
  show V m c main_v1 _ = V m c main_v1 _
  refine congrArg (V m c main_v1) (funext fun a => Fin.ext ?_)
  match a with
  | ⟨0, _⟩ => show win0_0.index t (0 : Fin 2) * 512 + 1 * p.val = 512 * (t.val / 43) + p.val; rw [e0]; omega
  | ⟨1, _⟩ => show win0_0.index t (1 : Fin 2) * 4096 + 1 * k.val = k.val; rw [e1]; omega

/-- The gate weights' block at t is their 256 rows from 256 · (t % 43). -/
theorem gwblk_apply (c : Dev nD) (t : Fin cfg0.N) (j : Fin 256) (k : Fin 4096) :
    gwblk m c t (ix2 j k) = GWa m c (ix2 (chan (chBlk t) j) k) := by
  obtain ⟨-, -, e0, e1, -⟩ := idx_facts t
  unfold gwblk iblk
  rw [View.read_apply]
  show V m c main_v2 _ = V m c main_v2 _
  refine congrArg (V m c main_v2) (funext fun a => Fin.ext ?_)
  match a with
  | ⟨0, _⟩ => show win0_1.index t (0 : Fin 2) * 256 + 1 * j.val = 256 * (t.val % 43) + j.val; rw [e0]; omega
  | ⟨1, _⟩ => show win0_1.index t (1 : Fin 2) * 4096 + 1 * k.val = k.val; rw [e1]; omega

/-- The gate scales' block at t is their 256 entries from 256 · (t % 43). -/
theorem gsblk_apply (c : Dev nD) (t : Fin cfg0.N) (j : Fin 256) :
    gsblk m c t (ix2 (0 : Fin 1) j) = GSa m c (ix2 (0 : Fin 1) (chan (chBlk t) j)) := by
  obtain ⟨-, -, -, -, e0, e1, -⟩ := idx_facts t
  unfold gsblk iblk
  rw [View.read_apply]
  show V m c main_v5 _ = V m c main_v5 _
  refine congrArg (V m c main_v5) (funext fun a => Fin.ext ?_)
  match a with
  | ⟨0, _⟩ => show win0_2.index t (0 : Fin 2) * 1 + 1 * 0 = 0; rw [e0]
  | ⟨1, _⟩ => show win0_2.index t (1 : Fin 2) * 256 + 1 * j.val = 256 * (t.val % 43) + j.val; rw [e1]; omega

/-- The up weights' block at t. -/
theorem uwblk_apply (c : Dev nD) (t : Fin cfg0.N) (j : Fin 256) (k : Fin 4096) :
    uwblk m c t (ix2 j k) = UWa m c (ix2 (chan (chBlk t) j) k) := by
  obtain ⟨-, -, -, -, -, -, e0, e1, -⟩ := idx_facts t
  unfold uwblk iblk
  rw [View.read_apply]
  show V m c main_v3 _ = V m c main_v3 _
  refine congrArg (V m c main_v3) (funext fun a => Fin.ext ?_)
  match a with
  | ⟨0, _⟩ => show win0_3.index t (0 : Fin 2) * 256 + 1 * j.val = 256 * (t.val % 43) + j.val; rw [e0]; omega
  | ⟨1, _⟩ => show win0_3.index t (1 : Fin 2) * 4096 + 1 * k.val = k.val; rw [e1]; omega

/-- The up scales' block at t. -/
theorem usblk_apply (c : Dev nD) (t : Fin cfg0.N) (j : Fin 256) :
    usblk m c t (ix2 (0 : Fin 1) j) = USa m c (ix2 (0 : Fin 1) (chan (chBlk t) j)) := by
  obtain ⟨-, -, -, -, -, -, -, -, e0, e1, -⟩ := idx_facts t
  unfold usblk iblk
  rw [View.read_apply]
  show V m c main_v6 _ = V m c main_v6 _
  refine congrArg (V m c main_v6) (funext fun a => Fin.ext ?_)
  match a with
  | ⟨0, _⟩ => show win0_4.index t (0 : Fin 2) * 1 + 1 * 0 = 0; rw [e0]
  | ⟨1, _⟩ => show win0_4.index t (1 : Fin 2) * 256 + 1 * j.val = 256 * (t.val % 43) + j.val; rw [e1]; omega

/-- The down weights' block at t is their 256 columns from 256 · (t % 43). -/
theorem dwblk_apply (c : Dev nD) (t : Fin cfg0.N) (q : Fin 4096) (j : Fin 256) :
    dwblk m c t (ix2 q j) = DWa m c (ix2 q (chan (chBlk t) j)) := by
  obtain ⟨-, -, -, -, -, -, -, -, -, -, e0, e1, -⟩ := idx_facts t
  unfold dwblk iblk
  rw [View.read_apply]
  show V m c main_v4 _ = V m c main_v4 _
  refine congrArg (V m c main_v4) (funext fun a => Fin.ext ?_)
  match a with
  | ⟨0, _⟩ => show win0_5.index t (0 : Fin 2) * 4096 + 1 * q.val = q.val; rw [e0]; omega
  | ⟨1, _⟩ => show win0_5.index t (1 : Fin 2) * 256 + 1 * j.val = 256 * (t.val % 43) + j.val; rw [e1]; omega

/-- The down scale's one block is the whole row. -/
theorem dsblk_apply (c : Dev nD) (t : Fin cfg0.N) (q : Fin 4096) :
    dsblk m c t (ix2 (0 : Fin 1) q) = DSa m c (ix2 (0 : Fin 1) q) := by
  obtain ⟨-, -, -, -, -, -, -, -, -, -, -, -, e0, e1, -⟩ := idx_facts t
  unfold dsblk iblk
  rw [View.read_apply]
  show V m c main_v7 _ = V m c main_v7 _
  refine congrArg (V m c main_v7) (funext fun a => Fin.ext ?_)
  match a with
  | ⟨0, _⟩ => show win0_6.index t (0 : Fin 2) * 1 + 1 * 0 = 0; rw [e0]
  | ⟨1, _⟩ => show win0_6.index t (1 : Fin 2) * 4096 + 1 * q.val = q.val; rw [e1]; omega

/-! ## One point's contribution -/

/-- The gated unit depends on its arguments only through their values. -/
theorem gated_congr {K : ℕ} {x x' gw gw' uw uw' : Fin K → EReal} {gs gs' us us' : EReal}
    (hx : ∀ k, x k = x' k) (hgw : ∀ k, gw k = gw' k) (huw : ∀ k, uw k = uw' k) (hgs : gs = gs') (hus : us = us') :
    gated x gw uw gs us = gated x' gw' uw' gs' us' := by
  obtain rfl : x = x' := funext hx
  obtain rfl : gw = gw' := funext hgw
  obtain rfl : uw = uw' := funext huw
  subst hgs hus
  rfl

/-- The accumulating store at point t adds, at (p, q), the block term of token row 512 · (t / 43) + p and output
    channel q for hidden-channel block t % 43. -/
theorem point_apply (c : Dev nD) (t : Fin cfg0.N) (acc : FVec Ideal S512x4096 .f32) (p : Fin 512) (q : Fin 4096) :
    k0_pay3 (F := Ideal) (xblk m c t) (gwblk m c t) (uwblk m c t) (gsblk m c t) (usblk m c t) (dwblk m c t) acc (ix2 p q)
      = acc (ix2 p q) + blockTerm (xrow m c (tokRow (rowBlk t) p)) (gwf m c) (uwf m c) (gsf m c) (usf m c) (dwf m c) q (chBlk t) := by
  refine (Pay.pay3_apply (xblk m c t) (gwblk m c t) (uwblk m c t) (gsblk m c t) (usblk m c t) (dwblk m c t) acc p q).trans ?_
  refine congrArg (acc (ix2 p q) + ·) ?_
  unfold blockTerm
  refine Finset.sum_congr rfl fun j _ => ?_
  refine congrArg₂ (· * ·) ?_ (dwblk_apply m c t q j)
  exact gated_congr (fun k => xblk_apply m c t p k) (fun k => gwblk_apply m c t j k) (fun k => uwblk_apply m c t j k)
    (gsblk_apply m c t j) (usblk_apply m c t j)

/-! ## The three kinds of point -/

theorem at_A (c : Dev nD) (t : Fin cfg0.N) (h0 : t.val % 43 = 0) (h1 : ¬t.val % 43 = 42) :
    outsAt0 m c t.val t.isLt = k0_pay3 (F := Ideal) (xblk m c t) (gwblk m c t) (uwblk m c t) (gsblk m c t) (usblk m c t) (dwblk m c t) (k0_pay2 (F := Ideal)) :=
  (outsAt0_A m c t h0 h1).trans
    (Cases.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk m c 0 t) (iblk m c 1 t) (iblk m c 2 t) (iblk m c 3 t) (iblk m c 4 t) (iblk m c 5 t) (iblk m c 6 t))

theorem at_B (c : Dev nD) (t : Fin cfg0.N) (h0 : ¬t.val % 43 = 0) (h1 : ¬t.val % 43 = 42) :
    outsAt0 m c t.val t.isLt = k0_pay3 (F := Ideal) (xblk m c t) (gwblk m c t) (uwblk m c t) (gsblk m c t) (usblk m c t) (dwblk m c t)
      (outsAt0 m c (t.val - 1) (Nat.lt_of_le_of_lt (Nat.sub_le _ _) t.isLt)) :=
  (outsAt0_B m c t h0 h1).trans
    (Cases.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)))

theorem at_C (c : Dev nD) (t : Fin cfg0.N) (h0 : ¬t.val % 43 = 0) (h1 : t.val % 43 = 42) :
    outsAt0 m c t.val t.isLt = k0_pay1 (F := Ideal) (k0_pay3 (F := Ideal) (xblk m c t) (gwblk m c t) (uwblk m c t) (gsblk m c t) (usblk m c t) (dwblk m c t)
      (outsAt0 m c (t.val - 1) (Nat.lt_of_le_of_lt (Nat.sub_le _ _) t.isLt))) (dsblk m c t) :=
  (outsAt0_C m c t h0 h1).trans
    (Cases.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)))

/-! ## The running sum, by induction on the point -/

/-- The contributions of hidden-channel blocks 0 … n to output channel q of token row p of row block i. -/
def partialOut (c : Dev nD) (i : Fin 8) (p : Fin 512) (q : Fin 4096) (n : ℕ) : EReal :=
  upto (blockTerm (xrow m c (tokRow i p)) (gwf m c) (uwf m c) (gsf m c) (usf m c) (dwf m c) q) n

/-- Zero plus block 0 is the sum up to block 0. -/
theorem step_first (bt : Fin 43 → EReal) (b : Fin 43) (hb : b.val = 0) : (0 : EReal) + bt b = upto bt 0 := by
  obtain rfl : b = 0 := Fin.ext hb
  rw [zero_add]
  exact (upto_zero (B := 42) bt).symm

/-- The sum up to block k plus block k + 1 is the sum up to block k + 1. -/
theorem step_next (bt : Fin 43 → EReal) (k : ℕ) (b : Fin 43) (hb : b.val = k + 1) : upto bt k + bt b = upto bt (k + 1) := by
  have hk : k + 1 < 43 := hb ▸ b.isLt
  obtain rfl : b = ⟨k + 1, hk⟩ := Fin.ext hb
  exact (upto_succ bt k hk).symm

/-- A first point of a row block leaves block 0's contribution. -/
theorem inv_A (c : Dev nD) (t : Fin cfg0.N) (h0 : t.val % 43 = 0) (p : Fin 512) (q : Fin 4096) :
    (outsAt0 m c t.val t.isLt : FVec Ideal S512x4096 .f32) (ix2 p q) = partialOut m c (rowBlk t) p q (t.val % 43) := by
  have h1 : ¬t.val % 43 = 42 := by omega
  rw [at_A m c t h0 h1]
  refine (point_apply m c t (k0_pay2 (F := Ideal)) p q).trans ?_
  rw [Pay.pay2_apply, h0]
  exact step_first _ (chBlk t) h0

/-- A later point adds its block to what the point before left. -/
theorem inv_step (c : Dev nD) (t : Fin cfg0.N) (h0 : ¬t.val % 43 = 0) (p : Fin 512) (q : Fin 4096)
    (prev : FVec Ideal S512x4096 .f32) (ih : prev (ix2 p q) = partialOut m c (rowBlk t) p q (t.val % 43 - 1)) :
    k0_pay3 (F := Ideal) (xblk m c t) (gwblk m c t) (uwblk m c t) (gsblk m c t) (usblk m c t) (dwblk m c t) prev (ix2 p q) = partialOut m c (rowBlk t) p q (t.val % 43) := by
  refine (point_apply m c t prev p q).trans ?_
  rw [ih]
  have h := step_next (blockTerm (xrow m c (tokRow (rowBlk t) p)) (gwf m c) (uwf m c) (gsf m c) (usf m c) (dwf m c) q) (t.val % 43 - 1) (chBlk t) (by show t.val % 43 = t.val % 43 - 1 + 1; omega)
  rw [show t.val % 43 - 1 + 1 = t.val % 43 from by omega] at h
  exact h

/-- After point n the output block holds, at (p, q), the contributions of blocks 0 … n % 43 of its row block; at the
    row block's last point, all 43 of them scaled by the down scale of channel q. -/
theorem outsAt_inv (c : Dev nD) : ∀ (n : ℕ) (hn : n < cfg0.N) (p : Fin 512) (q : Fin 4096),
    (¬n % 43 = 42 → (outsAt0 m c n hn : FVec Ideal S512x4096 .f32) (ix2 p q) = partialOut m c (rowBlk ⟨n, hn⟩) p q (n % 43))
    ∧ (n % 43 = 42 → (outsAt0 m c n hn : FVec Ideal S512x4096 .f32) (ix2 p q) = partialOut m c (rowBlk ⟨n, hn⟩) p q 42 * dsf m c q)
  | 0, hn, p, q => ⟨fun _ => inv_A m c ⟨0, hn⟩ (Nat.zero_mod 43) p q, fun h => absurd h (by decide)⟩
  | n + 1, hn, p, q => by
    by_cases h0 : (n + 1) % 43 = 0
    · exact ⟨fun _ => inv_A m c ⟨n + 1, hn⟩ h0 p q, fun h => absurd h (by omega)⟩
    · have hprev : ¬n % 43 = 42 := by omega
      have ih := (outsAt_inv c n (Nat.lt_of_succ_lt hn) p q).1 hprev
      have hrow : rowBlk ⟨n, Nat.lt_of_succ_lt hn⟩ = rowBlk ⟨n + 1, hn⟩ := Fin.ext (by show n / 43 = (n + 1) / 43; omega)
      rw [hrow, show n % 43 = (n + 1) % 43 - 1 from by omega] at ih
      refine ⟨fun h1 => ?_, fun h1 => ?_⟩
      · rw [show outsAt0 m c (n + 1) hn = _ from at_B m c ⟨n + 1, hn⟩ h0 h1]
        exact inv_step m c ⟨n + 1, hn⟩ h0 p q _ ih
      · rw [show outsAt0 m c (n + 1) hn = _ from at_C m c ⟨n + 1, hn⟩ h0 h1]
        refine (Pay.pay1_apply _ (dsblk m c ⟨n + 1, hn⟩) p q).trans ?_
        rw [dsblk_apply]
        refine congrArg (· * DSa m c (ix2 (0 : Fin 1) q)) ?_
        have h := inv_step m c ⟨n + 1, hn⟩ h0 p q _ ih
        rw [show (⟨n + 1, hn⟩ : Fin cfg0.N).val % 43 = 42 from h1] at h
        exact h

/-! ## What is written back, and the whole array -/

/-- The region's result: output channel q of token row r at (r, q). -/
def Gout (c : Dev nD) : FVec Ideal S4096x4096 .f32 := fun y =>
  ffnOut (xrow m c (y 0)) (gwf m c) (uwf m c) (gsf m c) (usf m c) (dwf m c) (dsf m c) (y 1)

/-- A row block's last point writes back the finished rows: block t / 43 of the result. -/
theorem flushed_eq (c : Dev nD) (t : Fin cfg0.N) (hf : (cfg0.win 7).flush t = true) :
    (dats m 0 c).flushed 7 t = ((cfg0.win 7).blk t).view.read (Elt Ideal) (Gout m c) := by
  have h42 : t.val % 43 = 42 := (flush0_7 t).mp hf
  obtain ⟨-, -, -, -, -, -, -, -, -, -, -, -, -, -, e0, e1⟩ := idx_facts t
  show (cfg0.win 7).cut (grid0.coords t) ((dats m 0 c).after 7 t) = _
  rw [after0_7]
  funext j
  show (outsAt0 m c t.val t.isLt : FVec Ideal S512x4096 .f32) j = Gout m c (((cfg0.win 7).blk t).view.emb j)
  obtain ⟨p, q, rfl⟩ : ∃ (p : Fin 512) (q : Fin 4096), j = ix2 p q := ⟨j 0, j 1, eq_ix2 j⟩
  rw [(outsAt_inv m c t.val t.isLt p q).2 h42]
  have hemb : ((cfg0.win 7).blk t).view.emb (ix2 p q) = ix2 (tokRow (rowBlk t) p) q := funext fun a => Fin.ext (by
    match a with
    | ⟨0, _⟩ => show win0_7.index t (0 : Fin 2) * 512 + 1 * p.val = 512 * (t.val / 43) + p.val; rw [e0]; omega
    | ⟨1, _⟩ => show win0_7.index t (1 : Fin 2) * 4096 + 1 * q.val = q.val; rw [e1]; omega)
  rw [hemb]
  exact ffnOut_eq_blocks (xrow m c (tokRow (rowBlk t) p)) (gwf m c) (uwf m c) (gsf m c) (usf m c) (dwf m c) (dsf m c) q

/-- Every entry of the result lies in the block some row block's last point writes back. -/
theorem covered (c : Dev nD) (i : S4096x4096.Idx) :
    ∃ t : Fin cfg0.N, (cfg0.win 7).flush t = true ∧ i ∈ ((cfg0.win 7).blk t).view.set := by
  have hi0 : (i 0).val < 4096 := (i 0).isLt
  have hi1 : (i 1).val < 4096 := (i 1).isLt
  have hN : cfg0.N = 344 := N_0
  have ht : 43 * ((i 0).val / 512) + 42 < cfg0.N := by rw [hN]; omega
  obtain ⟨-, -, -, -, -, -, -, -, -, -, -, -, -, -, e0, e1⟩ := idx_facts ⟨43 * ((i 0).val / 512) + 42, ht⟩
  refine ⟨⟨43 * ((i 0).val / 512) + 42, ht⟩, (flush0_7 _).mpr (by show (43 * ((i 0).val / 512) + 42) % 43 = 42; omega), ?_⟩
  show i ∈ ((View.whole main_v8).slice (win0_7.rect ⟨43 * ((i 0).val / 512) + 42, ht⟩)).set
  rw [View.set_slice_whole, Rect.mem_set_unit]
  intro a
  match a with
  | ⟨0, _⟩ =>
    show win0_7.index ⟨43 * ((i 0).val / 512) + 42, ht⟩ (0 : Fin 2) * 512 ≤ (i 0).val
      ∧ (i 0).val < win0_7.index ⟨43 * ((i 0).val / 512) + 42, ht⟩ (0 : Fin 2) * 512 + 512
    rw [e0]
    show (43 * ((i 0).val / 512) + 42) / 43 * 512 ≤ (i 0).val ∧ (i 0).val < (43 * ((i 0).val / 512) + 42) / 43 * 512 + 512
    omega
  | ⟨1, _⟩ =>
    show win0_7.index ⟨43 * ((i 0).val / 512) + 42, ht⟩ (1 : Fin 2) * 4096 ≤ (i 1).val
      ∧ (i 1).val < win0_7.index ⟨43 * ((i 0).val / 512) + 42, ht⟩ (1 : Fin 2) * 4096 + 4096
    rw [e1]
    omega

/-- The result array after the run. -/
theorem final (c : Dev nD) : (dats m 0 c).arrAt 7 cfg0.N = Gout m c :=
  (dats m 0 c).arrAt_eq_of_cover 7 (Gout m c) (fun t hf => flushed_eq m c t hf) (covered c)

end Cert.KernelIdeal.KValue

end
-- ==== Proof.HostSide.lean ====
/-
  The host operations around the kernel region, read one element at a time.

  Before the region the token array x of shape [2, 2048, 4096] is laid out as 4096 rows of 4096 entries (row
  2048 · b + s is token (b, s)) and its format is changed, which at the extended reals moves no number; the three
  integer weight matrices are converted to floats, which reads each word as the signed integer it denotes; the three
  scale vectors get a leading axis of size one. After the region its result, 4096 rows of 4096 entries, is laid out
  as [2, 2048, 4096] again. Every lemma says which entry of which argument array an entry of one of these arrays is.
-/
import proofs.«176337_j10118942949749_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The token array -/

/-- Row 2048 · b + s of the token matrix the region reads is token (b, s) of the argument x: the reshape keeps the
    row-major position, (b · 2048 + s) · 4096 + k on both sides, and the format change moves no number. -/
theorem x_apply (c : Dev nD) (b : Fin 2) (s : Fin 2048) (k : Fin 4096) :
    (V m c main_v1 : S4096x4096.Idx → EReal) (ix2 (⟨2048 * b.val + s.val, by have := b.isLt; have := s.isLt; omega⟩ : Fin 4096) k)
      = (m ((c : Thread nD τ).loc main_arg0) : S2x2048x4096.Idx → EReal) (ix3 b s k) := by
  have e : @Eq (S4096x4096.Idx → EReal) (V m c main_v1)
      (truncf (F := Ideal) .bf16 (shapeCast S4096x4096 (m ((c : Thread nD τ).loc main_arg0) : S2x2048x4096.Idx → EReal) shapeCasts_S2x2048x4096_S4096x4096) bitsLt_bf16_f32) := by
    show StableHlo.after hostOps0 (fun b => m (c, b)) (Proc.devRef .tc main_v1) = _
    after_results
    rfl
  rw [e, truncf_apply]
  refine shapeCast_apply _ _ _ (ix3 b s k) ?_
  rw [Shape.rowMajor_val_three, Shape.rowMajor_val_two]
  show (b.val * 2048 + s.val) * 4096 + k.val = (2048 * b.val + s.val) * 4096 + k.val
  omega

/-! ## The integer weight matrices -/

/-- The gate weights the region reads are the argument gw's words read as signed integers. -/
theorem gw_apply (c : Dev nD) (f : Fin 11008) (k : Fin 4096) :
    (V m c main_v2 : S11008x4096.Idx → EReal) (ix2 f k)
      = ((((m ((c : Thread nD τ).loc main_arg1) : S11008x4096.Idx → BitVec 32) (ix2 f k)).toInt : ℝ) : EReal) := by
  have e : @Eq (S11008x4096.Idx → EReal) (V m c main_v2)
      (sitofp (F := Ideal) .bf16 (m ((c : Thread nD τ).loc main_arg1) : S11008x4096.Idx → BitVec 32)) := by
    show StableHlo.after hostOps0 (fun b => m (c, b)) (Proc.devRef .tc main_v2) = _
    after_results
  rw [e]
  rfl

/-- The up weights the region reads are the argument uw's words read as signed integers. -/
theorem uw_apply (c : Dev nD) (f : Fin 11008) (k : Fin 4096) :
    (V m c main_v3 : S11008x4096.Idx → EReal) (ix2 f k)
      = ((((m ((c : Thread nD τ).loc main_arg3) : S11008x4096.Idx → BitVec 32) (ix2 f k)).toInt : ℝ) : EReal) := by
  have e : @Eq (S11008x4096.Idx → EReal) (V m c main_v3)
      (sitofp (F := Ideal) .bf16 (m ((c : Thread nD τ).loc main_arg3) : S11008x4096.Idx → BitVec 32)) := by
    show StableHlo.after hostOps0 (fun b => m (c, b)) (Proc.devRef .tc main_v3) = _
    after_results
  rw [e]
  rfl

/-- The down weights the region reads are the argument dw's words read as signed integers. -/
theorem dw_apply (c : Dev nD) (q : Fin 4096) (f : Fin 11008) :
    (V m c main_v4 : S4096x11008.Idx → EReal) (ix2 q f)
      = ((((m ((c : Thread nD τ).loc main_arg5) : S4096x11008.Idx → BitVec 32) (ix2 q f)).toInt : ℝ) : EReal) := by
  have e : @Eq (S4096x11008.Idx → EReal) (V m c main_v4)
      (sitofp (F := Ideal) .bf16 (m ((c : Thread nD τ).loc main_arg5) : S4096x11008.Idx → BitVec 32)) := by
    show StableHlo.after hostOps0 (fun b => m (c, b)) (Proc.devRef .tc main_v4) = _
    after_results
  rw [e]
  rfl

/-! ## The scale vectors -/

/-- The gate scales the region reads, a row vector, are the argument gs: entry (0, f) is entry f. -/
theorem gs_apply (c : Dev nD) (f : Fin 11008) :
    (V m c main_v5 : S1x11008.Idx → EReal) (ix2 (0 : Fin 1) f)
      = (m ((c : Thread nD τ).loc main_arg2) : S11008.Idx → EReal) (ix1 f) := by
  have e : @Eq (S1x11008.Idx → EReal) (V m c main_v5)
      (shapeCast S1x11008 (m ((c : Thread nD τ).loc main_arg2) : S11008.Idx → EReal) shapeCasts_S11008_S1x11008) := by
    show StableHlo.after hostOps0 (fun b => m (c, b)) (Proc.devRef .tc main_v5) = _
    after_results
    rfl
  rw [e]
  exact shapeCast_a_1a_apply _ _ 0 f

/-- The up scales the region reads, a row vector, are the argument us: entry (0, f) is entry f. -/
theorem us_apply (c : Dev nD) (f : Fin 11008) :
    (V m c main_v6 : S1x11008.Idx → EReal) (ix2 (0 : Fin 1) f)
      = (m ((c : Thread nD τ).loc main_arg4) : S11008.Idx → EReal) (ix1 f) := by
  have e : @Eq (S1x11008.Idx → EReal) (V m c main_v6)
      (shapeCast S1x11008 (m ((c : Thread nD τ).loc main_arg4) : S11008.Idx → EReal) shapeCasts_S11008_S1x11008) := by
    show StableHlo.after hostOps0 (fun b => m (c, b)) (Proc.devRef .tc main_v6) = _
    after_results
    rfl
  rw [e]
  exact shapeCast_a_1a_apply _ _ 0 f

/-- The down scales the region reads, a row vector, are the argument ds: entry (0, q) is entry q. -/
theorem ds_apply (c : Dev nD) (q : Fin 4096) :
    (V m c main_v7 : S1x4096.Idx → EReal) (ix2 (0 : Fin 1) q)
      = (m ((c : Thread nD τ).loc main_arg6) : S4096.Idx → EReal) (ix1 q) := by
  have e : @Eq (S1x4096.Idx → EReal) (V m c main_v7)
      (shapeCast S1x4096 (m ((c : Thread nD τ).loc main_arg6) : S4096.Idx → EReal) shapeCasts_S4096_S1x4096) := by
    show StableHlo.after hostOps0 (fun b => m (c, b)) (Proc.devRef .tc main_v7) = _
    after_results
    rfl
  rw [e]
  exact shapeCast_a_1a_apply _ _ 0 q

/-! ## The result -/

/-- Entry (b, s, q) of the program's result is entry (2048 · b + s, q) of the array the region leaves: the reshape
    after the region keeps the row-major position. -/
theorem tail_apply (c : Dev nD) (b : Fin 2) (s : Fin 2048) (q : Fin 4096) :
    (Pipeline.afterTail₀ cfgs (dats m) 0 (V0 m) [hostOps1] c main_v9 : S2x2048x4096.Idx → EReal) (ix3 b s q)
      = ((dats m 0 c).arrAt 7 cfg0.N : S4096x4096.Idx → EReal) (ix2 (⟨2048 * b.val + s.val, by have := b.isLt; have := s.isLt; omega⟩ : Fin 4096) q) := by
  have e : @Eq (S2x2048x4096.Idx → EReal) (Pipeline.afterTail₀ cfgs (dats m) 0 (V0 m) [hostOps1] c main_v9)
      (shapeCast S2x2048x4096 ((dats m 0 c).arrAt 7 cfg0.N : S4096x4096.Idx → EReal) shapeCasts_S4096x4096_S2x2048x4096) := by
    unfold Pipeline.afterTail₀
    show StableHlo.after hostOps1 _ (Proc.devRef .tc main_v9) = _
    after_results
    rw [Pipeline.withArrays_arr spec0 launch0.win.arr_inj c _ _ 7]
    rfl
  rw [e]
  refine shapeCast_apply _ _ _ (ix2 (⟨2048 * b.val + s.val, by have := b.isLt; have := s.isLt; omega⟩ : Fin 4096) q) ?_
  rw [Shape.rowMajor_val_three, Shape.rowMajor_val_two]
  show (2048 * b.val + s.val) * 4096 + q.val = (b.val * 2048 + s.val) * 4096 + q.val
  omega

end Cert.KernelIdeal.HostSide

end
-- ==== Proof.KernelRun.lean ====
/-
  The kernel program's run, read: its result array is Spec.lean's result of the seven argument arrays.

  Before the region the program reshapes x to [4096, 4096] and narrows its float format, reads the three integer
  weight matrices as floats and gives the three scale vectors a leading unit axis; none of this moves or changes a
  number over the extended reals. The region leaves output channel q of token row r at (r, q) (KernelValue.lean),
  and the reshape after it puts row 2048 · b + s at (b, s). So entry (b, s, q) of the result is output channel q for
  token row (b, s) of x against the argument weights and scales.
-/
import proofs.«176337_j10118942949749_1_alg».proof.Proof.KernelValue
import proofs.«176337_j10118942949749_1_alg».proof.Proof.HostSide

noncomputable section

namespace Cert.KernelIdeal.KRun

open Cert.KernelIdeal Cert.KernelIdeal.Gen Idealize.ShloMosaic Idealize.ShloMosaic.TcCoe Idealize.SL.Sem
open Idealize.ShloMosaic.ValueIdx Cert.Ffn Cert.KernelIdeal.KValue

variable (m : (ℓ : Loc nD τ sig) → Buf (Elt Ideal) ℓ) (ρ : Dev nD → PrngReg)

/-- An output channel depends on the token row, the weights and the scales only through their values. -/
theorem ffnOut_congr {x x' : Fin 4096 → EReal} {gw gw' uw uw' : Fin 11008 → Fin 4096 → EReal} {gs gs' us us' : Fin 11008 → EReal}
    {dw dw' : Fin 4096 → Fin 11008 → EReal} {ds ds' : Fin 4096 → EReal} (q : Fin 4096)
    (hx : ∀ k, x k = x' k) (hgw : ∀ f k, gw f k = gw' f k) (huw : ∀ f k, uw f k = uw' f k) (hgs : ∀ f, gs f = gs' f)
    (hus : ∀ f, us f = us' f) (hdw : ∀ q f, dw q f = dw' q f) (hds : ∀ q, ds q = ds' q) :
    ffnOut x gw uw gs us dw ds q = ffnOut x' gw' uw' gs' us' dw' ds' q := by
  obtain rfl : x = x' := funext hx
  obtain rfl : gw = gw' := funext fun f => funext (hgw f)
  obtain rfl : uw = uw' := funext fun f => funext (huw f)
  obtain rfl : gs = gs' := funext hgs
  obtain rfl : us = us' := funext hus
  obtain rfl : dw = dw' := funext fun q => funext (hdw q)
  obtain rfl : ds = ds' := funext hds
  rfl

/-- The program's result after the run, as the specification's function of the argument arrays. -/
theorem result_eq (c : Dev nD) :
    Pipeline.afterTail₀ cfgs (dats m) 0 (V0 m) [hostOps1] c main_v9
      = Cert.Ffn.result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  funext i
  obtain ⟨b, s, q, rfl⟩ : ∃ (b : Fin 2) (s : Fin 2048) (q : Fin 4096), i = ix3 b s q := ⟨i 0, i 1, i 2, eq_ix3 i⟩
  refine (HostSide.tail_apply m c b s q).trans ?_
  rw [final m c]
  unfold Gout Cert.Ffn.result
  exact ffnOut_congr q (fun k => HostSide.x_apply m c b s k) (fun f k => HostSide.gw_apply m c f k) (fun f k => HostSide.uw_apply m c f k)
    (fun f => HostSide.gs_apply m c f) (fun f => HostSide.us_apply m c f) (fun q f => HostSide.dw_apply m c q f) (fun q => HostSide.ds_apply m c q)

/-- Every weakly fair execution of the kernel program terminates with its result at the specification's function of
    the argument arrays, and the arguments as they were. -/
theorem run : θ_run defs (onTc (τ := τ) (main (F := Ideal))) ⟨m, fun _ => 0, ρ⟩ (fun r => ∀ c : Dev nD,
      r.2.mem ((c.tc : Thread nD τ).loc main_v9)
        = Cert.Ffn.result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KRun

end
-- ==== Proof.RefValue.lean ====
/-
  The reference side of the feed-forward block: the value the reference program computes, read one element at a
  time, is the function Cert.Ffn.result.

  The reference evaluates, for every token row (b, s) and hidden channel f, the gate pre-activation
  g = (∑ k, x k · gw f k) · gs f, then g · (1 / (1 + exp (−g))), the up-projection u = (∑ k, x k · uw f k) · us f,
  their product, and last, for every output channel q, the sum over the 11008 hidden channels of that product
  against dw q f, scaled by ds q. Each lemma below reads one of these stages at an index given by its coordinates;
  the only identity used beyond reading is that 1 / (1 + exp (−g)) is the logistic function by definition.
-/
import proofs.«176337_j10118942949749_1_alg».proof.Proof.Gen.ReferenceIdeal.Read
import proofs.«176337_j10118942949749_1_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-! ## Indices -/

/-- The left operand of a hidden-channel contraction at (b, s, f) and k is the token row's entry k. -/
theorem lidx_v1_ix (b : Fin 2) (s : Fin 2048) (f : Fin 11008) (k : Fin 4096) :
    lidx_main_v1 (ix3 b s f) k = ix3 b s k :=
  funext fun a => Fin.ext (by match a with | ⟨0, _⟩ => rfl | ⟨1, _⟩ => rfl | ⟨2, _⟩ => rfl)

/-- The right operand of a hidden-channel contraction at (b, s, f) and k is the weight (f, k). -/
theorem ridx_v1_ix (b : Fin 2) (s : Fin 2048) (f : Fin 11008) (k : Fin 4096) :
    ridx_main_v1 (ix3 b s f) k = ix2 f k :=
  funext fun a => Fin.ext (by match a with | ⟨0, _⟩ => rfl | ⟨1, _⟩ => rfl)

/-- A per-channel scale broadcast over the token rows reads channel f at (b, s, f). -/
theorem idx_v2_v3_ix (b : Fin 2) (s : Fin 2048) (f : Fin 11008) :
    idx_main_v2 (idx_main_v3 (ix3 b s f)) = ix1 f :=
  funext fun a => Fin.ext (by match a with | ⟨0, _⟩ => rfl)

/-- An integer weight read as a float is the real its word denotes, signed. -/
theorem sitofp_ideal (w : BitVec 32) : FloatOps.sitofp (F := Ideal) .f32 w = (((w.toInt : ℝ) : EReal)) := rfl

/-! ## The gate pre-activation -/

/-- The gate pre-activation at (b, s, f): the token row against row f of the gate weights, times the gate scale. -/
theorem gate_apply (x0 : (⟨S2x2048x4096, .f32⟩ : BufTy).Contents (Elt Ideal)) (x1 : (⟨S11008x4096, .i32⟩ : BufTy).Contents (Elt Ideal)) (x2 : (⟨S11008, .f32⟩ : BufTy).Contents (Elt Ideal)) (b : Fin 2) (s : Fin 2048) (f : Fin 11008) :
    val_main_v4 (F := Ideal) x0 x1 x2 (ix3 b s f)
      = (∑ k : Fin 4096, (x0 (ix3 b s k) : EReal) * (((x1 (ix2 f k)).toInt : ℝ) : EReal)) * (x2 (ix1 f) : EReal) := by
  rw [val_main_v4_apply, val_main_v1_apply, val_main_v3_apply, val_main_v2_apply]
  simp only [val_main_v0_apply, lidx_v1_ix, ridx_v1_ix, idx_v2_v3_ix, sitofp_ideal, Ideal.mulf_def]

/-! ## The up-projection -/

/-- The left operand of the up-projection's contraction at (b, s, f) and k is the token row's entry k. -/
theorem lidx_v7_ix (b : Fin 2) (s : Fin 2048) (f : Fin 11008) (k : Fin 4096) :
    lidx_main_v7 (ix3 b s f) k = ix3 b s k :=
  funext fun a => Fin.ext (by match a with | ⟨0, _⟩ => rfl | ⟨1, _⟩ => rfl | ⟨2, _⟩ => rfl)

/-- The right operand of the up-projection's contraction at (b, s, f) and k is the weight (f, k). -/
theorem ridx_v7_ix (b : Fin 2) (s : Fin 2048) (f : Fin 11008) (k : Fin 4096) :
    ridx_main_v7 (ix3 b s f) k = ix2 f k :=
  funext fun a => Fin.ext (by match a with | ⟨0, _⟩ => rfl | ⟨1, _⟩ => rfl)

/-- The up scale broadcast over the token rows reads channel f at (b, s, f). -/
theorem idx_v8_v9_ix (b : Fin 2) (s : Fin 2048) (f : Fin 11008) :
    idx_main_v8 (idx_main_v9 (ix3 b s f)) = ix1 f :=
  funext fun a => Fin.ext (by match a with | ⟨0, _⟩ => rfl)

/-- The up-projection at (b, s, f): the token row against row f of the up weights, times the up scale. -/
theorem up_apply (x0 : (⟨S2x2048x4096, .f32⟩ : BufTy).Contents (Elt Ideal)) (x3 : (⟨S11008x4096, .i32⟩ : BufTy).Contents (Elt Ideal)) (x4 : (⟨S11008, .f32⟩ : BufTy).Contents (Elt Ideal)) (b : Fin 2) (s : Fin 2048) (f : Fin 11008) :
    val_main_v10 (F := Ideal) x0 x3 x4 (ix3 b s f)
      = (∑ k : Fin 4096, (x0 (ix3 b s k) : EReal) * (((x3 (ix2 f k)).toInt : ℝ) : EReal)) * (x4 (ix1 f) : EReal) := by
  rw [val_main_v10_apply, val_main_v7_apply, val_main_v9_apply, val_main_v8_apply]
  simp only [val_main_v6_apply, lidx_v7_ix, ridx_v7_ix, idx_v8_v9_ix, sitofp_ideal, Ideal.mulf_def]

/-! ## The gated unit -/

/-- The reference's silu at an index: g · (1 / (1 + exp (−g))) in the host's operations is g times the logistic
    function of g, the latter by its definition. -/
theorem silu_apply (x0 : (⟨S2x2048x4096, .f32⟩ : BufTy).Contents (Elt Ideal)) (x1 : (⟨S11008x4096, .i32⟩ : BufTy).Contents (Elt Ideal)) (x2 : (⟨S11008, .f32⟩ : BufTy).Contents (Elt Ideal)) (j : S2x2048x11008.Idx) :
    val_main_v5 (F := Ideal) x0 x1 x2 j
      = (val_main_v4 (F := Ideal) x0 x1 x2 j : EReal) * Ideal.logistic (val_main_v4 (F := Ideal) x0 x1 x2 j) := by
  rw [val_main_v5_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

/-- One hidden channel at (b, s, f) is the gated unit of the spec: the gate pre-activation through g · σ(g), times
    the up-projection. -/
theorem hidden_apply (x0 : (⟨S2x2048x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (b : Fin 2) (s : Fin 2048) (f : Fin 11008) :
    val_main_v11 (F := Ideal) x0 x1 x2 x3 x4 (ix3 b s f)
      = Cert.Ffn.gated (fun k : Fin 4096 => (x0 (ix3 b s k) : EReal))
          (fun k : Fin 4096 => (((x1 (ix2 f k)).toInt : ℝ) : EReal)) (fun k : Fin 4096 => (((x3 (ix2 f k)).toInt : ℝ) : EReal))
          (x2 (ix1 f)) (x4 (ix1 f)) := by
  rw [val_main_v11_apply, silu_apply, gate_apply, up_apply, Ideal.mulf_def]
  rfl

/-! ## The down-projection -/

/-- The left operand of the down-projection's contraction at (b, s, q) and f is hidden channel f of the row. -/
theorem lidx_v13_ix (b : Fin 2) (s : Fin 2048) (q : Fin 4096) (f : Fin 11008) :
    lidx_main_v13 (ix3 b s q) f = ix3 b s f :=
  funext fun a => Fin.ext (by match a with | ⟨0, _⟩ => rfl | ⟨1, _⟩ => rfl | ⟨2, _⟩ => rfl)

/-- The right operand of the down-projection's contraction at (b, s, q) and f is the weight (q, f). -/
theorem ridx_v13_ix (b : Fin 2) (s : Fin 2048) (q : Fin 4096) (f : Fin 11008) :
    ridx_main_v13 (ix3 b s q) f = ix2 q f :=
  funext fun a => Fin.ext (by match a with | ⟨0, _⟩ => rfl | ⟨1, _⟩ => rfl)

/-- The down scale broadcast over the token rows reads channel q at (b, s, q). -/
theorem idx_v14_v15_ix (b : Fin 2) (s : Fin 2048) (q : Fin 4096) :
    idx_main_v14 (idx_main_v15 (ix3 b s q)) = ix1 q :=
  funext fun a => Fin.ext (by match a with | ⟨0, _⟩ => rfl)

/-- The output at (b, s, q): the hidden channels of the row against row q of the down weights, times the down scale. -/
theorem out_apply (x0 : (⟨S2x2048x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) (b : Fin 2) (s : Fin 2048) (q : Fin 4096) :
    val_main_v16 (F := Ideal) x0 x1 x2 x3 x4 x5 x6 (ix3 b s q)
      = (∑ f : Fin 11008, Cert.Ffn.gated (fun k : Fin 4096 => (x0 (ix3 b s k) : EReal))
          (fun k : Fin 4096 => (((x1 (ix2 f k)).toInt : ℝ) : EReal)) (fun k : Fin 4096 => (((x3 (ix2 f k)).toInt : ℝ) : EReal))
          (x2 (ix1 f)) (x4 (ix1 f)) * (((x5 (ix2 q f)).toInt : ℝ) : EReal)) * (x6 (ix1 q) : EReal) := by
  rw [val_main_v16_apply, val_main_v13_apply, val_main_v15_apply, val_main_v14_apply]
  simp only [val_main_v12_apply, lidx_v13_ix, ridx_v13_ix, idx_v14_v15_ix, sitofp_ideal, Ideal.mulf_def, hidden_apply]

/-! ## The whole reference -/

/-- The reference's value is the block's result array. -/
theorem ref_eq (x0 : (⟨S2x2048x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) :
    Cert.ReferenceIdeal.Read.val_main_v16 (F := Ideal) x0 x1 x2 x3 x4 x5 x6 = Cert.Ffn.result x0 x1 x2 x3 x4 x5 x6 := by
  funext i
  obtain ⟨b, s, q, rfl⟩ : ∃ (b : Fin 2) (s : Fin 2048) (q : Fin 4096), i = ix3 b s q := ⟨i 0, i 1, i 2, eq_ix3 i⟩
  rw [out_apply]
  rfl

end Cert.ReferenceIdeal.RefValue

end
-- ==== Proof.lean ====
/-
  The certificate of the quantized gated feed-forward kernel against its jnp reference.

  Both programs compute, for every token row of x and every output channel q,

      out q = ( ∑_{f < 11008} (g f · σ(g f)) · u f · dw q f ) · ds q,
      g f = (∑_k x k · gw f k) · gs f,   u f = (∑_k x k · uw f k) · us f,

  over the extended reals, with σ the logistic function (Proof/Spec.lean). The kernel walks the hidden channels f in
  43 blocks of 256 along one grid axis, adding each block's contribution into an output block that stays in place
  and scaling by ds at the last block; the reference forms the whole sum at once and spells σ as 1 / (1 + exp(−g)),
  which is the logistic function's definition. Regrouping a sum into blocks holds in any commutative monoid, so the
  two results are equal without any use of the finiteness of the inputs.

  The two kernel programs' frames are the generated ones; the reference's frame is its generated run with the result
  dropped; the idealization rewrote nothing, so there is nothing to preserve.
-/
import proofs.«176337_j10118942949749_1_alg».proof.Defs
import proofs.«176337_j10118942949749_1_alg».proof.Proof.Gen.Kernel
import proofs.«176337_j10118942949749_1_alg».proof.Proof.Gen.Kernel.Skeleton
import proofs.«176337_j10118942949749_1_alg».proof.Proof.Gen.Kernel.Launch
import proofs.«176337_j10118942949749_1_alg».proof.Proof.Gen.Kernel.Points
import proofs.«176337_j10118942949749_1_alg».proof.Proof.Gen.Kernel.Frame
import proofs.«176337_j10118942949749_1_alg».proof.Proof.Gen.KernelIdeal
import proofs.«176337_j10118942949749_1_alg».proof.Proof.Gen.KernelIdeal.Skeleton
import proofs.«176337_j10118942949749_1_alg».proof.Proof.Gen.KernelIdeal.Launch
import proofs.«176337_j10118942949749_1_alg».proof.Proof.Gen.KernelIdeal.Points
import proofs.«176337_j10118942949749_1_alg».proof.Proof.Gen.KernelIdeal.Frame
import proofs.«176337_j10118942949749_1_alg».proof.Proof.Gen.ReferenceIdeal
import proofs.«176337_j10118942949749_1_alg».proof.Proof.Gen.Pre_finite_inputs
import proofs.«176337_j10118942949749_1_alg».proof.Proof.Gen.ReferenceIdeal.Run
import proofs.«176337_j10118942949749_1_alg».proof.Proof.Gen.ReferenceIdeal.Read
import proofs.«176337_j10118942949749_1_alg».proof.Proof.KernelRun
import proofs.«176337_j10118942949749_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the seven arguments, the kernel program ends with its result at the
    specification's function of them (Proof/KernelRun.lean) and the reference with its own at the same function
    (Proof/RefValue.lean). -/
theorem algebraic : Cert.algebraic_KernelIdeal_ReferenceIdeal := by
  intro m ρ m' ρ' _ hagree
  refine ⟨fun c => Cert.Ffn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
